-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x11008 : Shape := ⟨3, ![1, 2048, 11008]⟩
abbrev S4096x11008 : Shape := ⟨2, ![4096, 11008]⟩
abbrev S_ : Shape := ⟨0, ![]⟩

class Facts : Prop where
  bcast_S_S1x2048x11008 : S_.BroadcastsInDim S1x2048x11008 (![] : Fin 0 → Fin S1x2048x11008.rank)
  reducesTo_S1x2048x11008_S_d0_1_2 : S1x2048x11008.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_

variable [Facts]

def fn {F : FTy → Type} [FloatOps F] (main_arg0 : FVec F S1x2048x11008 .f32) (main_arg1 : FVec F S4096x11008 .f32) : IVec S_ 1 :=
  let main_v0 : FVec F S1x2048x11008 .f32 := Host.absf main_arg0
  let main_cst : FVec F S_ .f32 := constant S_ .f32 0x7F800000#32
  let main_v1 : FVec F S1x2048x11008 .f32 := broadcastInDim S1x2048x11008 ![] bcast_S_S1x2048x11008 main_cst
  let main_v2 : IVec S1x2048x11008 1 := cmpf .olt main_v0 main_v1
  let main_c : IVec S_ 1 := constantI S_ 1 1#1
  let main_v3 : IVec S_ 1 := (fun x v => Host.reduce IntOp.andi x v reducesTo_S1x2048x11008_S_d0_1_2 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  main_v8
-- ==== Kernel.lean ====
abbrev S1x2048x11008 : Shape := ⟨3, ![1, 2048, 11008]⟩
abbrev S4096x11008 : Shape := ⟨2, ![4096, 11008]⟩
abbrev S2048x11008 : Shape := ⟨2, ![2048, 11008]⟩
abbrev S2048x4096 : Shape := ⟨2, ![2048, 4096]⟩
abbrev S512x11008 : Shape := ⟨2, ![512, 11008]⟩
abbrev S256x11008 : Shape := ⟨2, ![256, 11008]⟩
abbrev S512x256 : Shape := ⟨2, ![512, 256]⟩
abbrev S1x2048x4096 : Shape := ⟨3, ![1, 2048, 4096]⟩
abbrev S1x11008 : Shape := ⟨2, ![1, 11008]⟩
abbrev S2048x256 : Shape := ⟨2, ![2048, 256]⟩
abbrev S1x256 : Shape := ⟨2, ![1, 256]⟩
abbrev S256 : Shape := ⟨1, ![256]⟩
abbrev S11008 : Shape := ⟨1, ![11008]⟩
abbrev S_ : Shape := ⟨0, ![]⟩

abbrev nBuf : Space → Nat
  | .hbm => 18
  | .vmem => 10
  | .smem => 0
  | _ => 0

abbrev bufTy : (tb : Table) → Fin (tcTables nBuf tb) → BufTy
  | .hbm, ⟨0, _⟩ => ⟨S1x2048x11008, .f32⟩
  | .hbm, ⟨1, _⟩ => ⟨S4096x11008, .f32⟩
  | .hbm, ⟨2, _⟩ => ⟨S2048x11008, .f32⟩
  | .hbm, ⟨3, _⟩ => ⟨S2048x11008, .bf16⟩
  | .hbm, ⟨4, _⟩ => ⟨S4096x11008, .bf16⟩
  | .hbm, ⟨5, _⟩ => ⟨S2048x4096, .f32⟩
  | .hbm, ⟨6, _⟩ => ⟨S1x2048x4096, .f32⟩
  | .hbm, ⟨7, _⟩ => ⟨S1x11008, .f32⟩
  | .hbm, ⟨8, _⟩ => ⟨S11008, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S11008, .f32⟩
  | .hbm, ⟨17, _⟩ => ⟨S11008, .i1⟩
  | .local _ .vmem, ⟨0, _⟩ => ⟨S512x11008, .bf16⟩
  | .local _ .vmem, ⟨1, _⟩ => ⟨S512x11008, .bf16⟩
  | .local _ .vmem, ⟨2, _⟩ => ⟨S256x11008, .bf16⟩
  | .local _ .vmem, ⟨3, _⟩ => ⟨S256x11008, .bf16⟩
  | .local _ .vmem, ⟨4, _⟩ => ⟨S512x256, .f32⟩
  | .local _ .vmem, ⟨5, _⟩ => ⟨S512x256, .f32⟩
  | .local _ .vmem, ⟨6, _⟩ => ⟨S2048x256, .f32⟩
  | .local _ .vmem, ⟨7, _⟩ => ⟨S2048x256, .f32⟩
  | .local _ .vmem, ⟨8, _⟩ => ⟨S1x256, .f32⟩
  | .local _ .vmem, ⟨9, _⟩ => ⟨S1x256, .f32⟩
  | _, _ => ⟨S1x2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![43], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S1x2048x11008_S2048x11008 : S1x2048x11008.ShapeCasts S2048x11008
  bitsLt_bf16_f32 : FTy.bits .bf16 < FTy.bits .f32
  inb_S512x11008_S512x11008_0_0 : ∀ a, (![0, 0] : Fin 2 → Nat) a + S512x11008.size a ≤ S512x11008.size a
  h_S512x11008 : 0 < S512x11008.numel
  shapeCasts_S512x11008_S512x11008 : S512x11008.ShapeCasts S512x11008
  inb_S256x11008_S256x11008_0_0 : ∀ a, (![0, 0] : Fin 2 → Nat) a + S256x11008.size a ≤ S256x11008.size a
  h_S256x11008 : 0 < S256x11008.numel
  shapeCasts_S256x11008_S256x11008 : S256x11008.ShapeCasts S256x11008
  inb_S512x256_S512x256_0_0 : ∀ a, (![0, 0] : Fin 2 → Nat) a + S512x256.size a ≤ S512x256.size a
  h_S512x256 : 0 < S512x256.numel
  bcast_S2048x4096_S1x2048x4096_1_2 : S2048x4096.BroadcastsInDim S1x2048x4096 (![1, 2] : Fin 2 → Fin S1x2048x4096.rank)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  natLt_1_32 : 1 < 32
  reduces_S2048x256_S256 : S2048x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x11008_S11008 : S1x11008.ShapeCasts S11008
  reducesTo_S11008_S_d0 : S11008.ReducesTo [0] S_
  h_S_ : 0 < S_.numel
  bcast_S_S11008 : S_.BroadcastsInDim S11008 (![] : Fin 0 → Fin S11008.rank)
  dot_S512x11008_S256x11008_S512x256_1_1_0_0_n_n_wf : DotDims.WF S512x11008 S256x11008 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x11008.size a ≤ S2048x11008.size a
  hwx0_0 : ∀ i : grid0.Coords, EltTy.bits .bf16 = 32 ∨ (Rect.block (s := S2048x11008) S512x11008.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x11008.size a ≤ S4096x11008.size a
  hwx0_1 : ∀ i : grid0.Coords, EltTy.bits .bf16 = 32 ∨ (Rect.block (s := S4096x11008) S256x11008.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S2048x4096.size a
  hwx0_2 : ∀ i : grid0.Coords, EltTy.bits .f32 = 32 ∨ (Rect.block (s := S2048x4096) S512x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S2048x11008.size a
  hwx1_0 : ∀ i : grid1.Coords, EltTy.bits .f32 = 32 ∨ (Rect.block (s := S2048x11008) S2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x11008.size a
  hwx1_1 : ∀ i : grid1.Coords, EltTy.bits .f32 = 32 ∨ (Rect.block (s := S1x11008) S1x256.size (cc1_transform_1 i) (hinb1_1 i)).WholeWords (EltTy.packing .f32)

variable [Facts₀]

def dot_S512x11008_S256x11008_S512x256_1_1_0_0_n_n : DotDims S512x11008 S256x11008 S512x256 where
  lhsContracting := [1]
  rhsContracting := [1]
  lhsNonContracting := [0]
  rhsNonContracting := [0]
  lhsBatch := []
  rhsBatch := []
  wf := dot_S512x11008_S256x11008_S512x256_1_1_0_0_n_n_wf

abbrev win0_0 : Pipeline.Window sig grid0 :=
  Pipeline.Window.ofSpec (Memref.whole main_v1) S512x11008.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x11008.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x256.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1x2048x11008 : Shape := ⟨3, ![1, 2048, 11008]⟩
abbrev S4096x11008 : Shape := ⟨2, ![4096, 11008]⟩
abbrev S1x2048x4096 : Shape := ⟨3, ![1, 2048, 4096]⟩
abbrev S2048x11008 : Shape := ⟨2, ![2048, 11008]⟩
abbrev S_ : Shape := ⟨0, ![]⟩
abbrev S11008 : Shape := ⟨1, ![11008]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x11008, .f32⟩
  | .hbm, ⟨1, _⟩ => ⟨S4096x11008, .f32⟩
  | .hbm, ⟨2, _⟩ => ⟨S1x2048x4096, .f32⟩
  | .hbm, ⟨3, _⟩ => ⟨S2048x11008, .f32⟩
  | .hbm, ⟨4, _⟩ => ⟨S_, .f32⟩
  | .hbm, ⟨5, _⟩ => ⟨S2048x11008, .f32⟩
  | .hbm, ⟨6, _⟩ => ⟨S2048x11008, .f32⟩
  | .hbm, ⟨7, _⟩ => ⟨S_, .f32⟩
  | .hbm, ⟨8, _⟩ => ⟨S11008, .f32⟩
  | .hbm, ⟨9, _⟩ => ⟨S_, .f32⟩
  | .hbm, ⟨10, _⟩ => ⟨S2048x11008, .f32⟩
  | .hbm, ⟨11, _⟩ => ⟨S2048x11008, .i1⟩
  | .hbm, ⟨12, _⟩ => ⟨S2048x11008, .i32⟩
  | .hbm, ⟨13, _⟩ => ⟨S_, .i32⟩
  | .hbm, ⟨14, _⟩ => ⟨S11008, .i32⟩
  | .hbm, ⟨15, _⟩ => ⟨S11008, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S11008, .f32⟩
  | .hbm, ⟨24, _⟩ => ⟨S11008, .i1⟩
  | _, _ => ⟨S1x2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  shapeCasts_S1x2048x11008_S2048x11008 : S1x2048x11008.ShapeCasts S2048x11008
  bcast_S_S2048x11008 : S_.BroadcastsInDim S2048x11008 (![] : Fin 0 → Fin S2048x11008.rank)
  reducesTo_S2048x11008_S11008_d0 : S2048x11008.ReducesTo [0] S11008
  h_S_ : 0 < S_.numel
  natLt_1_32 : 1 < 32
  reducesTo_S11008_S_d0 : S11008.ReducesTo [0] S_
  bcast_S_S11008 : S_.BroadcastsInDim S11008 (![] : Fin 0 → Fin S11008.rank)
  dot_S1x2048x11008_S4096x11008_S1x2048x4096_2_1_01_0_n_n_wf : DotDims.WF S1x2048x11008 S4096x11008 S1x2048x4096 [2] [1] [0, 1] [0] [] []

variable [Facts₀]

def dot_S1x2048x11008_S4096x11008_S1x2048x4096_2_1_01_0_n_n : DotDims S1x2048x11008 S4096x11008 S1x2048x4096 where
  lhsContracting := [2]
  rhsContracting := [1]
  lhsNonContracting := [0, 1]
  rhsNonContracting := [0]
  lhsBatch := []
  rhsBatch := []
  wf := dot_S1x2048x11008_S4096x11008_S1x2048x4096_2_1_01_0_n_n_wf

class Facts : Prop extends Facts₀ where

variable [Facts]
-- ==== Proof.LibIndicatorSum.lean ====
/-
  Counting with one-bit words: two general facts about the extended reals and 32-bit words.

  * `cmp_max_zero` : a number clamped below at zero is positive exactly when the number is, so the one-bit "greater
    than zero" comparison of `max a 0` is that of `a`.
  * `fold_addi_count`, `toInt_fold_addi` : one-bit values widened to 32-bit words and added up as words count the
    ones; over fewer than 2^31 summands the word sum does not wrap, so the signed integer it denotes, as a real, is the
    sum of the summands' signed integers as reals. This is what identifies a count taken in integer words and converted
    afterwards with the same count taken as a sum of converted indicators.
-/
import Idealize.ShloMosaic.PureOps.Ideal.Laws
import Idealize.ShloMosaic.PureOps.Reduce

noncomputable section

open scoped BigOperators

namespace Cert.Lib

open Idealize.ShloMosaic

/-- A number clamped below at zero is positive exactly when the number is. -/
theorem cmp_max_zero (a : EReal) : Ideal.cmp .ogt (max a 0) 0 = Ideal.cmp .ogt a 0 := by
  unfold Ideal.cmp
  simp only [lt_max_iff, lt_self_iff_false, or_false]

theorem bit_cases : ∀ x : BitVec 1, x = 0#1 ∨ x = 1#1 := by decide

/-- Summing widened one-bit values as 32-bit words counts the ones: the word sum over a finite set is the word of a
    natural number `n` no larger than the set, and the converted summands add up to that `n`. -/
theorem fold_addi_count {ι : Type} [DecidableEq ι] (b : ι → BitVec 1) (s : Finset ι) :
    ∃ n : ℕ, n ≤ s.card ∧ s.fold IntOp.addi 0#32 (fun k => ((b k).setWidth 32 : BitVec 32)) = BitVec.ofNat 32 n
      ∧ ∑ k ∈ s, (((((b k).setWidth 32 : BitVec 32)).toInt : ℝ) : EReal) = ((n : ℝ) : EReal) := by
  induction s using Finset.induction_on with
  | empty => exact ⟨0, le_rfl, rfl, by simp⟩
  | insert a s ha ih =>
    obtain ⟨n, hn, hf, hsum⟩ := ih
    rw [Finset.fold_insert ha, Finset.sum_insert ha, Finset.card_insert_of_notMem ha, hf, hsum]
    rcases bit_cases (b a) with h | h
    · refine ⟨n, by omega, ?_, ?_⟩
      · rw [h]
        show (0#32 : BitVec 32) + BitVec.ofNat 32 n = BitVec.ofNat 32 n
        exact BitVec.zero_add _
      · rw [h]
        show (((0 : ℤ) : ℝ) : EReal) + _ = _
        simp
    · refine ⟨n + 1, by omega, ?_, ?_⟩
      · rw [h]
        show BitVec.ofNat 32 1 + BitVec.ofNat 32 n = BitVec.ofNat 32 (n + 1)
        rw [← BitVec.ofNat_add, Nat.add_comm]
      · rw [h]
        show (((1 : ℤ) : ℝ) : EReal) + _ = _
        rw [← EReal.coe_add]
        congr 1
        push_cast
        ring

/-- So over fewer than 2^31 summands the word sum's integer, converted, is the sum of the converted summands. -/
theorem toInt_fold_addi {N : ℕ} (hN : N < 2 ^ 31) (b : Fin N → BitVec 1) :
    ((((Finset.univ : Finset (Fin N)).fold IntOp.addi 0#32 (fun k => ((b k).setWidth 32 : BitVec 32))).toInt : ℝ) : EReal)
      = ∑ k : Fin N, (((((b k).setWidth 32 : BitVec 32)).toInt : ℝ) : EReal) := by
  obtain ⟨n, hn, hf, hsum⟩ := fold_addi_count b Finset.univ
  rw [Finset.card_univ, Fintype.card_fin] at hn
  rw [hf, hsum]
  have h32 : (BitVec.ofNat 32 n).toInt = (n : ℤ) := by
    rw [BitVec.toInt_eq_toNat_cond, BitVec.toNat_ofNat]
    have hm : n % 2 ^ 32 = n := Nat.mod_eq_of_lt (by omega)
    rw [hm]
    split
    · rfl
    · omega
  rw [h32]
  norm_cast

end Cert.Lib

end
-- ==== Proof.Spec.lean ====
/-
  What the two programs compute, as functions of the argument arrays.

  * `rowDots A B` : entry (s, d) is the sum over the 11008 features f of A[s, f] · B[d, f] — every row of the token
    array against every row of the weight array.
  * `ind a` : the indicator of `0 < a` as a float, spelt the way both programs produce it: the one-bit comparison,
    widened to a 32-bit word, read as a signed integer and converted.
  * `posCounts A` : entry (0, f) is the number of tokens s with A[s, f] > 0, as the sum of the indicators.
  * `maskOf cnt` : the thresholding both programs apply to the counts, `cnt[f] > floor (mean cnt · 0.95)`.

  The two facts that join the programs' two ways of counting are in Proof/LibIndicatorSum.lean: adding up, as 32-bit
  words, fewer than 2^31 widened one-bit values never wraps, so the integer the word sum denotes, converted, is the sum
  of the converted summands; and clamping at zero first does not change whether a number is positive.
-/
import Idealize.ShloMosaic.PureOps.Ideal.Laws
import Idealize.ShloMosaic.PureOps.Reduce
import Idealize.ShloMosaic.Lib.ValueIdx
import Idealize.ShloMosaic.Lib.Pipeline.Value
import proofs.«173430_j10806137716759_1_alg».proof.Proof.LibIndicatorSum

noncomputable section

open scoped BigOperators

namespace Cert.Spec

open Idealize.ShloMosaic Idealize.ShloMosaic.ValueIdx

abbrev SX : Shape := ⟨2, ![2048, 11008]⟩
abbrev SW : Shape := ⟨2, ![4096, 11008]⟩
abbrev SO : Shape := ⟨2, ![2048, 4096]⟩
abbrev SC2 : Shape := ⟨2, ![1, 11008]⟩
abbrev SC : Shape := ⟨1, ![11008]⟩

/-- Every row of `A` against every row of `B`: entry (s, d) is `∑ f, A[s, f] · B[d, f]`. -/
def rowDots (A : SX.Idx → EReal) (B : SW.Idx → EReal) : SO.Idx → EReal :=
  fun i => ∑ k : Fin 11008, A (ix2 (i 0) k) * B (ix2 (i 1) k)

/-- The indicator of `0 < a` as a float: the one-bit comparison widened to a word, read signed, converted. -/
def ind (a : EReal) : EReal := ((((Ideal.cmp .ogt a 0).setWidth 32 : BitVec 32).toInt : ℝ) : EReal)

/-- Per feature, how many tokens are positive there: entry (0, f) is `∑ s, ind A[s, f]`. -/
def posCounts (A : SX.Idx → EReal) : SC2.Idx → EReal :=
  fun i => ∑ k : Fin 2048, ind (A (ix2 k (i 1)))

/-- The same counts as a vector over the features. -/
def posCountsVec (A : SX.Idx → EReal) : SC.Idx → EReal :=
  fun j => ∑ k : Fin 2048, ind (A (ix2 k (j 0)))

/-- A [2048, 4096] array viewed with a leading unit axis. -/
def liftRows (M : SO.Idx → EReal) : (⟨3, ![1, 2048, 4096]⟩ : Shape).Idx → EReal :=
  fun i => M (ix2 (i 1) (i 2))

abbrev S0 : Shape := ⟨0, ![]⟩

/-- The mask both programs derive from a vector of counts: a feature is kept when its count exceeds the floor of
    0.95 times the mean count (the mean as the sum divided by 11008; the two float literals as both programs print
    them). The shape facts the operations take are arguments: any two proofs of them give the same function. -/
def maskOf (hb : S0.BroadcastsInDim SC (![] : Fin 0 → Fin SC.rank)) (hr : SC.ReducesTo [0] S0) (hs : 0 < S0.numel)
    (cnt : SC.Idx → EReal) : SC.Idx → BitVec 1 :=
  cmpf (F := Ideal) (φ := .f32) .ogt cnt (broadcastInDim SC ![] hb (Host.floor (F := Ideal) (φ := .f32) (mulf (F := Ideal) (φ := .f32)
    (Host.divf (F := Ideal) (φ := .f32) (Host.reduceAdd (F := Ideal) (φ := .f32) cnt (constant (F := Ideal) S0 .f32 0x00000000#32) hr hs)
      (constant (F := Ideal) S0 .f32 0x462C0000#32))
    (constant (F := Ideal) S0 .f32 0x3F733333#32))))

/-- The one-row array of counts viewed as a vector is the vector of counts. -/
theorem shapeCast_posCounts (A : SX.Idx → EReal) (h : SC2.ShapeCasts SC) :
    shapeCast SC (posCounts A) h = posCountsVec A := by
  funext j
  refine (shapeCast_apply (posCounts A) h j (ix2 ⟨0, Nat.one_pos⟩ (j 0)) (by
    rw [Shape.rowMajor_val_two, Shape.rowMajor_val_one]
    show 0 * 11008 + (j 0).val = (j 0).val
    omega)).trans ?_
  rfl

end Cert.Spec

end
-- ==== Proof.MatmulRegion.lean ====
/-
  Region 0 (the matrix product), read as a value at the ideal instance: whatever the TensorCore's buffers hold when the
  region is entered (`V`), the result array ends holding every row of the left operand's array against every row of the
  right operand's, `Cert.Spec.rowDots`.

  Grid point t = (a, b) stages rows 512a … 512a+511 of the left array and rows 256b … 256b+255 of the right array,
  whole in the feature axis, and writes back block (a, b) of the result. The body's one store is the matrix product of
  the two staged blocks into a zero accumulator, so its entry (p, q) is the sum over the 11008 features of
  left[512a+p, f] · right[256b+q, f]: entry (512a+p, 256b+q) of `rowDots`. The 4 × 16 blocks tile the 2048 × 4096 result,
  so every entry is written.
-/
import proofs.«173430_j10806137716759_1_alg».proof.Proof.Gen.KernelIdeal.Frame
import proofs.«173430_j10806137716759_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.MatmulRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The body's product at an entry -/

theorem lhs_0 (i : S512x256.Idx) (q : dot_S512x11008_S256x11008_S512x256_1_1_0_0_n_n.contr.Idx) :
    (dot_S512x11008_S256x11008_S512x256_1_1_0_0_n_n.lhsIdx i q 0).val = (i 0).val := by
  unfold DotDims.lhsIdx
  rw [dif_neg (show ¬(0 : Fin S512x11008.rank) ∈ dot_S512x11008_S256x11008_S512x256_1_1_0_0_n_n.lhsBatch by decide), dif_pos (show (0 : Fin S512x11008.rank) ∈ dot_S512x11008_S256x11008_S512x256_1_1_0_0_n_n.lhsNonContracting by decide)]
  rfl
theorem lhs_1 (i : S512x256.Idx) (q : dot_S512x11008_S256x11008_S512x256_1_1_0_0_n_n.contr.Idx) :
    (dot_S512x11008_S256x11008_S512x256_1_1_0_0_n_n.lhsIdx i q 1).val = (q ⟨0, by decide⟩).val :=
  dot_S512x11008_S256x11008_S512x256_1_1_0_0_n_n.lhsIdx_val_of_single rfl i q
theorem rhs_0 (i : S512x256.Idx) (q : dot_S512x11008_S256x11008_S512x256_1_1_0_0_n_n.contr.Idx) :
    (dot_S512x11008_S256x11008_S512x256_1_1_0_0_n_n.rhsIdx i q 0).val = (i 1).val := by
  unfold DotDims.rhsIdx
  rw [dif_neg (show ¬(0 : Fin S256x11008.rank) ∈ dot_S512x11008_S256x11008_S512x256_1_1_0_0_n_n.rhsBatch by decide), dif_pos (show (0 : Fin S256x11008.rank) ∈ dot_S512x11008_S256x11008_S512x256_1_1_0_0_n_n.rhsNonContracting by decide)]
  rfl
theorem rhs_1 (i : S512x256.Idx) (q : dot_S512x11008_S256x11008_S512x256_1_1_0_0_n_n.contr.Idx) :
    (dot_S512x11008_S256x11008_S512x256_1_1_0_0_n_n.rhsIdx i q 1).val = (q ⟨0, by decide⟩).val :=
  dot_S512x11008_S256x11008_S512x256_1_1_0_0_n_n.rhsIdx_val_of_single rfl i q

/-- Entry `y` of the body's stored value: the sum over the features of the left block's row `y 0` times the right
    block's row `y 1`. -/
theorem pay_apply (x0 : Vec Ideal S512x11008 .bf16) (x1 : Vec Ideal S256x11008 .bf16) (y : S512x256.Idx) :
    k0_pay1 (F := Ideal) x0 x1 y = ∑ k : Fin 11008, x0 (ix2 (y 0) k) * x1 (ix2 (y 1) k) := by
  unfold k0_pay1
  simp only [shapeCast_self, matmul]
  rw [Ideal.matmul_constant_zero_apply, ← Equiv.sum_comp (contrEquiv1 dot_S512x11008_S256x11008_S512x256_1_1_0_0_n_n 11008 rfl rfl).symm]
  refine Finset.sum_congr rfl fun k _ => ?_
  have hk := contrEquiv1_symm_val dot_S512x11008_S256x11008_S512x256_1_1_0_0_n_n 11008 rfl rfl k
  have el : dot_S512x11008_S256x11008_S512x256_1_1_0_0_n_n.lhsIdx y ((contrEquiv1 dot_S512x11008_S256x11008_S512x256_1_1_0_0_n_n 11008 rfl rfl).symm k) = ix2 (y 0) k := funext fun a => Fin.ext (by
    match a with
    | ⟨0, _⟩ => exact lhs_0 _ _
    | ⟨1, _⟩ => exact (lhs_1 _ _).trans hk)
  have er : dot_S512x11008_S256x11008_S512x256_1_1_0_0_n_n.rhsIdx y ((contrEquiv1 dot_S512x11008_S256x11008_S512x256_1_1_0_0_n_n 11008 rfl rfl).symm k) = ix2 (y 1) k := funext fun a => Fin.ext (by
    match a with
    | ⟨0, _⟩ => exact rhs_0 _ _
    | ⟨1, _⟩ => exact (rhs_1 _ _).trans hk)
  rw [el, er]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 64 grid points: the left window's row block is the result's row block, the right
    window's row block is the result's column block, both inputs start at feature 0, and the result's block indices
    stay below 4 and 16. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 15 :=
  (by decide +kernel : ∀ t : Fin grid0.N, _)

/-- Every one of the 4 × 16 result blocks is some grid point's. -/
theorem idx_onto : ∀ (q0 : Fin 4) (q1 : Fin 16), ∃ t : Fin cfg0.N, win0_2.index t = ![q0.val, q1.val] :=
  (by decide +kernel : ∀ (q0 : Fin 4) (q1 : Fin 16), ∃ t : Fin grid0.N, win0_2.index t = ![q0.val, q1.val])

/-- What point `t` writes back is block `t` of `rowDots` of the two operand arrays as the region finds them. -/
theorem flushed_eq (c : Dev nD) (t : Fin cfg0.N) :
    (dat0 V c).flushed 2 t = ((cfg0.win 2).blk t).view.read (Elt Ideal) (Cert.Spec.rowDots (V c main_v1) (V c main_v2)) := by
  show (cfg0.win 2).cut (grid0.coords t) ((dat0 V c).after 2 t) = _
  rw [after0_2]
  unfold out0_2
  rw [View.canon_unit_zero hz]
  simp only [View.ld_unit_zero (S := S512x11008) hz, View.ld_unit_zero (S := S256x11008) hz]
  obtain ⟨e0, e1, e2, e3, e4, e5⟩ := idx_facts t
  funext j
  show k0_pay1 (F := Ideal) (iblk0 V c 0 t) (iblk0 V c 1 t) j = Cert.Spec.rowDots (V c main_v1) (V c main_v2) (((cfg0.win 2).blk t).view.emb j)
  refine (pay_apply (iblk0 V c 0 t) (iblk0 V c 1 t) j).trans ?_
  unfold Cert.Spec.rowDots
  refine Finset.sum_congr rfl fun k _ => ?_
  have h0 : iblk0 V c 0 t (ix2 (j 0) k) = V c main_v1 (ix2 ((((cfg0.win 2).blk t).view.emb j) 0) k) := by
    show V c main_v1 (((cfg0.win 0).blk t).view.emb (ix2 (j 0) k)) = _
    refine congrArg (V c main_v1) ?_
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 11008 + 1 * k.val = k.val; omega
  have h1 : iblk0 V c 1 t (ix2 (j 1) k) = V c main_v2 (ix2 ((((cfg0.win 2).blk t).view.emb j) 1) k) := by
    show V c main_v2 (((cfg0.win 1).blk t).view.emb (ix2 (j 1) k)) = _
    refine congrArg (V c main_v2) ?_
    funext a; apply Fin.ext
    match a with
    | ⟨0, _⟩ => show win0_1.index t (0 : Fin 2) * 256 + 1 * (j 1).val = win0_2.index t (1 : Fin 2) * 256 + 1 * (j 1).val; omega
    | ⟨1, _⟩ => show win0_1.index t (1 : Fin 2) * 11008 + 1 * k.val = k.val; omega
  rw [h0, h1]

/-- An entry of the result is in point `t`'s block iff each coordinate is in the block's range on its axis. -/
theorem mem_blk (t : Fin cfg0.N) (i : S2048x4096.Idx) :
    i ∈ ((cfg0.win 2).blk t).view.set ↔ ∀ a : Fin 2, win0_2.index t a * S512x256.size a ≤ (i a).val ∧ (i a).val < win0_2.index t a * S512x256.size a + S512x256.size a := by
  show i ∈ ((View.whole main_v3).slice (win0_2.rect t)).set ↔ _
  rw [View.set_slice_whole, Rect.mem_set_unit]
  exact Iff.rfl

/-- Every entry of the result lies in the block of the point whose block indices are (row / 512, column / 256). -/
theorem cover (i : S2048x4096.Idx) :
    ∃ t : Fin cfg0.N, (cfg0.win 2).flush t = true ∧ i ∈ ((cfg0.win 2).blk t).view.set := by
  have hi0 : (i 0).val < 2048 := (i 0).isLt
  have hi1 : (i 1).val < 4096 := (i 1).isLt
  obtain ⟨t, ht⟩ := idx_onto ⟨(i 0).val / 512, by omega⟩ ⟨(i 1).val / 256, by omega⟩
  have q0 : win0_2.index t (0 : Fin 2) = (i 0).val / 512 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 256 ≤ (i 1).val ∧ (i 1).val < win0_2.index t (1 : Fin 2) * 256 + 256; omega

/-- The result array after the region: `rowDots` of the two operand arrays as the region finds them. -/
theorem final (c : Dev nD) :
    (dat0 V c).arrAt 2 cfg0.N = Cert.Spec.rowDots (V c main_v1) (V c main_v2) :=
  (dat0 V c).arrAt_eq_of_cover 2 _ (fun t _ => flushed_eq V c t) cover

end Cert.KernelIdeal.MatmulRegion

end
-- ==== Proof.CountsRegion.lean ====
/-
  Region 1 (the activation counts), read as a value at the ideal instance: whatever the TensorCore's buffers hold when
  the region is entered (`V`), the [1, 11008] result array ends holding, per feature, the number of tokens that are
  positive there, `Cert.Spec.posCounts` of the token array.

  Grid point t stages columns 256t … 256t+255 of the token array, all 2048 rows, and writes back columns 256t … 256t+255
  of the result's one row. The body compares the staged block with zero, widens the bits to words, converts them to
  floats and sums them over the rows, so entry (0, q) of what it stores is the sum over the tokens s of the indicator of
  block[s, q] > 0: entry (0, 256t+q) of `posCounts`. The 43 blocks tile the row, so every entry is written.
-/
import proofs.«173430_j10806137716759_1_alg».proof.Proof.Gen.KernelIdeal.Frame
import proofs.«173430_j10806137716759_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.CountsRegion

open Cert.KernelIdeal Cert.KernelIdeal.Gen Idealize.ShloMosaic Idealize.ShloMosaic.TcCoe Idealize.SL.Sem
open Idealize.ShloMosaic.ValueIdx
open Idealize.ShloMosaic.Pipeline (Dat)

/-! ## The body's column sums at an entry -/

/-- Entry `y` of the body's stored value: the sum over the 2048 rows of the indicator that the block is positive in
    column `y 1`. -/
theorem pay_apply (x0 : Vec Ideal S2048x256 .f32) (y : S1x256.Idx) :
    k1_pay1 (F := Ideal) x0 y = ∑ k : Fin 2048, Cert.Spec.ind (x0 (ix2 k (y 1))) := by
  unfold k1_pay1
  simp only [shapeCast_self]
  refine (shapeCast_apply _ shapeCasts_S256_S1x256 y (ix1 (y 1)) (by
    rw [Shape.rowMajor_val_one, Shape.rowMajor_val_two]
    have h0 : (y 0).val < 1 := (y 0).isLt
    show (y 1).val = (y 0).val * 256 + (y 1).val
    omega)).trans ?_
  refine (Ideal.multiReduction_add_single _ 0x00000000#32 reduces_S2048x256_S256 (.inl rfl) rfl (ix1 (y 1))).trans ?_
  refine Finset.sum_congr rfl fun k _ => ?_
  have hidx : reduces_S2048x256_S256.lift (ix1 (y 1)) k = ix2 k (y 1) :=
    funext fun a => Fin.ext (by match a with | ⟨0, _⟩ => rfl | ⟨1, _⟩ => rfl)
  rw [hidx]
  show ((((Ideal.cmp .ogt (x0 (ix2 k (y 1))) (Ideal.ofBits .f32 0x00000000#32)).setWidth 32 : BitVec 32).toInt : ℝ) : EReal) = Cert.Spec.ind (x0 (ix2 k (y 1)))
  rw [Ideal.ofBits_zero_f32]
  rfl

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 43 grid points: the input window starts at row 0 and moves with the result's
    column block; the result's row block is 0 and its column block stays below 43. -/
theorem idx_facts : ∀ t : Fin cfg1.N, win1_0.index t (0 : Fin 2) = 0
    ∧ win1_0.index t (1 : Fin 2) = win1_1.index t (1 : Fin 2)
    ∧ win1_1.index t (0 : Fin 2) = 0
    ∧ win1_1.index t (1 : Fin 2) ≤ 42 :=
  (by decide +kernel : ∀ t : Fin grid1.N, _)

/-- Every one of the 43 result blocks is some grid point's. -/
theorem idx_onto : ∀ (q : Fin 43), ∃ t : Fin cfg1.N, win1_1.index t = ![0, q.val] :=
  (by decide +kernel : ∀ (q : Fin 43), ∃ t : Fin grid1.N, win1_1.index t = ![0, q.val])

/-- What point `t` writes back is block `t` of `posCounts` of the token array as the region finds it. -/
theorem flushed_eq (c : Dev nD) (t : Fin cfg1.N) :
    (dat1 V c).flushed 1 t = ((cfg1.win 1).blk t).view.read (Elt Ideal) (Cert.Spec.posCounts (V c main_v0)) := by
  show (cfg1.win 1).cut (grid1.coords t) ((dat1 V c).after 1 t) = _
  rw [after1_1]
  unfold out1_1
  rw [View.canon_unit_zero hz]
  simp only [View.ld_unit_zero (S := S2048x256) hz]
  obtain ⟨e0, e1, e2, e3⟩ := idx_facts t
  funext j
  show k1_pay1 (F := Ideal) (iblk1 V c 0 t) j = Cert.Spec.posCounts (V c main_v0) (((cfg1.win 1).blk t).view.emb j)
  refine (pay_apply (iblk1 V c 0 t) j).trans ?_
  unfold Cert.Spec.posCounts
  refine Finset.sum_congr rfl fun k _ => ?_
  refine congrArg Cert.Spec.ind ?_
  show V c main_v0 (((cfg1.win 0).blk t).view.emb (ix2 k (j 1))) = V c main_v0 (ix2 k ((((cfg1.win 1).blk t).view.emb j) 1))
  refine congrArg (V c main_v0) ?_
  funext a; apply Fin.ext
  match a with
  | ⟨0, _⟩ => show win1_0.index t (0 : Fin 2) * 2048 + 1 * k.val = k.val; omega
  | ⟨1, _⟩ => show win1_0.index t (1 : Fin 2) * 256 + 1 * (j 1).val = win1_1.index t (1 : Fin 2) * 256 + 1 * (j 1).val; omega

/-- An entry of the result is in point `t`'s block iff each coordinate is in the block's range on its axis. -/
theorem mem_blk (t : Fin cfg1.N) (i : S1x11008.Idx) :
    i ∈ ((cfg1.win 1).blk t).view.set ↔ ∀ a : Fin 2, win1_1.index t a * S1x256.size a ≤ (i a).val ∧ (i a).val < win1_1.index t a * S1x256.size a + S1x256.size a := by
  show i ∈ ((View.whole main_v5).slice (win1_1.rect t)).set ↔ _
  rw [View.set_slice_whole, Rect.mem_set_unit]
  exact Iff.rfl

/-- Every entry of the result lies in the block of the point whose column block is column / 256. -/
theorem cover (i : S1x11008.Idx) :
    ∃ t : Fin cfg1.N, (cfg1.win 1).flush t = true ∧ i ∈ ((cfg1.win 1).blk t).view.set := by
  have hi0 : (i 0).val < 1 := (i 0).isLt
  have hi1 : (i 1).val < 11008 := (i 1).isLt
  obtain ⟨t, ht⟩ := idx_onto ⟨(i 1).val / 256, by omega⟩
  have q0 : win1_1.index t (0 : Fin 2) = 0 := congrFun ht 0
  have q1 : win1_1.index t (1 : Fin 2) = (i 1).val / 256 := congrFun ht 1
  refine ⟨t, flush1_1 t, ?_⟩
  rw [mem_blk]
  intro a
  match a with
  | ⟨0, _⟩ => show win1_1.index t (0 : Fin 2) * 1 ≤ (i 0).val ∧ (i 0).val < win1_1.index t (0 : Fin 2) * 1 + 1; omega
  | ⟨1, _⟩ => show win1_1.index t (1 : Fin 2) * 256 ≤ (i 1).val ∧ (i 1).val < win1_1.index t (1 : Fin 2) * 256 + 256; omega

/-- The result array after the region: `posCounts` of the token array as the region finds it. -/
theorem final (c : Dev nD) :
    (dat1 V c).arrAt 1 cfg1.N = Cert.Spec.posCounts (V c main_v0) :=
  (dat1 V c).arrAt_eq_of_cover 1 _ (fun t _ => flushed_eq V c t) cover

end Cert.KernelIdeal.CountsRegion

end
-- ==== Proof.KernelValue.lean ====
/-
  The idealized kernel program's two results as the specification's functions of its arguments.

  @main is three stretches of host operations around the two regions, so the contents of every buffer at the end are a
  fold from the launch memory: a host operation writes its function of its operands, a region leaves its arrays at what
  its write-backs left and every other buffer alone.

  * The first result is written between the regions: the broadcast, to a leading unit axis, of the matrix product's
    result array. The product's operands are the token array viewed as [2048, 11008] and the weight array, each
    changed to the narrower float format — at the ideal instance the identity. So the first result is `rowDots` of the
    view and the weights, under a leading unit axis.
  * The second result is written after the second region: the thresholding (`maskOf`) of the counts region's one-row
    result viewed as a vector. The counts region reads the token array's view, which the first stretch wrote and
    nothing later touches. So the second result is `maskOf` of `posCountsVec` of the view.
-/
import proofs.«173430_j10806137716759_1_alg».proof.Proof.KernelRun
import proofs.«173430_j10806137716759_1_alg».proof.Proof.MatmulRegion
import proofs.«173430_j10806137716759_1_alg».proof.Proof.CountsRegion
import Idealize.ShloMosaic.Lib.StableHlo.Run
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- The token array viewed as [2048, 11008]. -/
abbrev view (c : Dev nD) : S2048x11008.Idx → EReal :=
  shapeCast S2048x11008 (m ((c : Thread nD τ).loc main_arg0)) shapeCasts_S1x2048x11008_S2048x11008

/-! ## What the first stretch leaves -/

theorem W1_v0 (c : Dev nD) : W1 m ρ c (Proc.devRef .tc main_v0) = view m c := by
  show StableHlo.after hostOps0 (W0 m ρ c) (Proc.devRef .tc main_v0) = _
  after_results
  rfl

theorem W1_v1 (c : Dev nD) :
    (W1 m ρ c (Proc.devRef .tc main_v1) : S2048x11008.Idx → EReal) = truncf (F := Ideal) .bf16 (view m c) bitsLt_bf16_f32 := by
  show StableHlo.after hostOps0 (W0 m ρ c) (Proc.devRef .tc main_v1) = _
  after_results
  rfl

theorem W1_v2 (c : Dev nD) :
    (W1 m ρ c (Proc.devRef .tc main_v2) : S4096x11008.Idx → EReal)
      = truncf (F := Ideal) (s := S4096x11008) (φ := .f32) .bf16 (m ((c : Thread nD τ).loc main_arg1)) bitsLt_bf16_f32 := by
  show StableHlo.after hostOps0 (W0 m ρ c) (Proc.devRef .tc main_v2) = _
  after_results

/-! ## The first result -/

theorem W5_v4 (c : Dev nD) :
    W5 m ρ c (Proc.devRef .tc main_v4)
      = broadcastInDim S1x2048x4096 ![1, 2] bcast_S2048x4096_S1x2048x4096_1_2
          (Cert.Spec.rowDots (view m c) (m ((c : Thread nD τ).loc main_arg1))) := by
  have e5 : W5 m ρ c (Proc.devRef .tc main_v4) = W4 m ρ c (Proc.devRef .tc main_v4) := by
    show StableHlo.after hostOps2 (W4 m ρ c) (Proc.devRef .tc main_v4) = _
    after_results
  have e4 : W4 m ρ c (Proc.devRef .tc main_v4) = W3 m ρ c (Proc.devRef .tc main_v4) :=
    W4_of_ne m ρ c main_v4 (by decide)
  have e3 : W3 m ρ c (Proc.devRef .tc main_v4)
      = broadcastInDim S1x2048x4096 ![1, 2] bcast_S2048x4096_S1x2048x4096_1_2 (W2 m ρ c (Proc.devRef .tc main_v3)) := by
    show StableHlo.after hostOps1 (W2 m ρ c) (Proc.devRef .tc main_v4) = _
    after_results
  have e2 : W2 m ρ c (Proc.devRef .tc main_v3) = Cert.Spec.rowDots (V1 m ρ c main_v1) (V1 m ρ c main_v2) :=
    (W2_arr m ρ c 2).trans (Cert.KernelIdeal.MatmulRegion.final (V1 m ρ) c)
  have h1 : (V1 m ρ c main_v1 : S2048x11008.Idx → EReal) = truncf (F := Ideal) .bf16 (view m c) bitsLt_bf16_f32 := W1_v1 m ρ c
  have h2 : (V1 m ρ c main_v2 : S4096x11008.Idx → EReal)
      = truncf (F := Ideal) (s := S4096x11008) (φ := .f32) .bf16 (m ((c : Thread nD τ).loc main_arg1)) bitsLt_bf16_f32 := W1_v2 m ρ c
  rw [e5, e4, e3, e2, h1, h2]
  rfl

/-! ## The second result -/

theorem V3_v0 (c : Dev nD) : V3 m ρ c main_v0 = view m c := by
  show StableHlo.after hostOps1 (W2 m ρ c) (Proc.devRef .tc main_v0) = _
  after_results
  rw [W2_of_ne m ρ c main_v0 (by decide)]
  exact W1_v0 m ρ c

theorem W5_v12 (c : Dev nD) :
    W5 m ρ c (Proc.devRef .tc main_v12)
      = Cert.Spec.maskOf bcast_S_S11008 reducesTo_S11008_S_d0 h_S_ (Cert.Spec.posCountsVec (view m c)) := by
  have e5 : W5 m ρ c (Proc.devRef .tc main_v12)
      = Cert.Spec.maskOf bcast_S_S11008 reducesTo_S11008_S_d0 h_S_
          (shapeCast S11008 (W4 m ρ c (Proc.devRef .tc main_v5)) shapeCasts_S1x11008_S11008) := by
    show StableHlo.after hostOps2 (W4 m ρ c) (Proc.devRef .tc main_v12) = _
    after_results
    rfl
  have e4 : W4 m ρ c (Proc.devRef .tc main_v5) = Cert.Spec.posCounts (V3 m ρ c main_v0) :=
    (W4_arr m ρ c 1).trans (Cert.KernelIdeal.CountsRegion.final (V3 m ρ) c)
  rw [e5, e4, V3_v0 m ρ c, Cert.Spec.shapeCast_posCounts]

/-! ## The run, read -/

/-- A [2048, 4096] array broadcast to a leading unit axis is the array under that axis. -/
theorem bcast_eq (M : S2048x4096.Idx → EReal) :
    broadcastInDim S1x2048x4096 ![1, 2] bcast_S2048x4096_S1x2048x4096_1_2 M = Cert.Spec.liftRows M := by
  funext i
  refine (broadcastInDim_apply _ bcast_S2048x4096_S1x2048x4096_1_2 M i (ix2 (i 1) (i 2)) (fun a => ?_)).trans rfl
  match a with
  | ⟨0, _⟩ => show (i 1).val = if (2048 : ℕ) = 1 then 0 else (i 1).val; rw [if_neg (by decide)]
  | ⟨1, _⟩ => show (i 2).val = if (4096 : ℕ) = 1 then 0 else (i 2).val; rw [if_neg (by decide)]

/-- Every weakly fair execution of the idealized kernel program terminates with its first result at `rowDots` of the
    token array's view and the weights under a leading unit axis, its second at the thresholded positive counts of the
    view, and the arguments unchanged. -/
theorem run : θ_run defs (onTc (τ := τ) (main (F := Ideal))) ⟨m, fun _ => 0, ρ⟩ (fun r => ∀ c : Dev nD,
      r.2.mem ((c.tc : Thread nD τ).loc main_v4)
        = Cert.Spec.liftRows (Cert.Spec.rowDots (view m c) (m ((c.tc : Thread nD τ).loc main_arg1)))
      ∧ r.2.mem ((c.tc : Thread nD τ).loc main_v12)
        = Cert.Spec.maskOf bcast_S_S11008 reducesTo_S11008_S_d0 h_S_ (Cert.Spec.posCountsVec (view m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).1.trans (W5_v4 m ρ c)).trans (bcast_eq _), (h c).2.1.trans (W5_v12 m ρ c), (h c).2.2.1, (h c).2.2.2⟩)
    (Cert.KernelIdeal.GenRun.run_named m ρ)

end Cert.KernelIdeal.KValue

end
-- ==== Proof.RefValue.lean ====
/-
  The reference's two results as the specification's functions of its arguments, at the ideal instance.

  * Its product: entry (0, s, d) of the `dot_general` is the sum over the features of x[0, s, f] · W[d, f], and
    x[0, s, f] is entry (s, f) of x viewed as a [2048, 11008] array: the product is `rowDots` of that view and W, under
    a leading unit axis.
  * Its counts: the reference clamps the view at zero, compares with zero, widens the bits to 32-bit words, adds the
    words over the tokens and converts the total. Clamping does not change positivity, and 2048 ones cannot wrap a
    32-bit sum, so the converted total is the sum of the converted indicators: `posCountsVec` of the view.
  * Its mask is `maskOf` of its counts, by the program's text.
-/
import proofs.«173430_j10806137716759_1_alg».proof.Proof.RefRead
import proofs.«173430_j10806137716759_1_alg».proof.Proof.Spec
import Idealize.ShloMosaic.PureOps.Reduce

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx

/-- The reference's `dot_general` is `rowDots` of the token array's [2048, 11008] view and the weight array, under a
    leading unit axis. -/
theorem dot_eq (x0 : (⟨S1x2048x11008, .f32⟩ : BufTy).Contents (Elt Ideal)) (x1 : (⟨S4096x11008, .f32⟩ : BufTy).Contents (Elt Ideal)) :
    val_main_v0 (F := Ideal) x0 x1 = Cert.Spec.liftRows (Cert.Spec.rowDots (val_main_v1 (F := Ideal) x0) x1) := by
  funext i
  rw [val_main_v0_apply]
  unfold Cert.Spec.liftRows Cert.Spec.rowDots
  refine Finset.sum_congr rfl fun k _ => ?_
  have hl : x0 (lidx_main_v0 i k) = val_main_v1 (F := Ideal) x0 (ix2 (i 1) k) := by
    rw [val_main_v1_apply]
    refine congrArg x0 ?_
    funext a; apply Fin.ext
    have h0 : (i 0).val < 1 := (i 0).isLt
    have h1 : (i 1).val < 2048 := (i 1).isLt
    have hk : k.val < 11008 := k.isLt
    match a with
    | ⟨0, _⟩ => show (i 0).val = 0; omega
    | ⟨1, _⟩ => show (i 1).val = ((i 1).val * 11008 + k.val) / 11008 % 2048; omega
    | ⟨2, _⟩ => show k.val = ((i 1).val * 11008 + k.val) % 11008; omega
  have hr : x1 (ridx_main_v0 i k) = x1 (ix2 (i 2) k) :=
    congrArg x1 (funext fun a => Fin.ext (by match a with | ⟨0, _⟩ => rfl | ⟨1, _⟩ => rfl))
  rw [hl, hr]

theorem hred : S2048x11008.Reduces [0] S11008 := by decide

/-- The reference's converted word counts are `posCountsVec` of the token array's [2048, 11008] view. -/
theorem counts_eq (x0 : (⟨S1x2048x11008, .f32⟩ : BufTy).Contents (Elt Ideal)) :
    val_main_v8 (F := Ideal) x0 = Cert.Spec.posCountsVec (val_main_v1 (F := Ideal) x0) := by
  funext j
  rw [val_main_v8_apply]
  unfold val_main_v7
  rw [Host.reduce_eq_fold_single IntOp.addi (val_main_v6 (F := Ideal) x0) (val_main_c (F := Ideal)) reducesTo_S2048x11008_S11008_d0 hred h_S_ j]
  show ((((Finset.univ : Finset (Fin 2048)).fold IntOp.addi 0#32 (fun k : Fin 2048 => ((Ideal.cmp .ogt (max (val_main_v1 (F := Ideal) x0 (hred.lift j k)) (Ideal.ofBits .f32 0x00000000#32)) (Ideal.ofBits .f32 0x00000000#32)).setWidth 32 : BitVec 32))).toInt : ℝ) : EReal) = _
  rw [Cert.Lib.toInt_fold_addi (by norm_num)]
  unfold Cert.Spec.posCountsVec Cert.Spec.ind
  refine Finset.sum_congr rfl fun k _ => ?_
  have hidx : hred.lift j k = ix2 k (j 0) := funext fun a => Fin.ext (by match a with | ⟨0, _⟩ => rfl | ⟨1, _⟩ => rfl)
  rw [hidx, Ideal.ofBits_zero_f32, Cert.Lib.cmp_max_zero]
  rfl

/-- The reference's mask is the thresholding of its counts. -/
theorem mask_eq (x0 : (⟨S1x2048x11008, .f32⟩ : BufTy).Contents (Elt Ideal)) :
    val_main_v14 (F := Ideal) x0 = Cert.Spec.maskOf bcast_S_S11008 reducesTo_S11008_S_d0 h_S_ (val_main_v8 (F := Ideal) x0) := rfl

end Cert.ReferenceIdeal.RefValue

end
-- ==== Proof.lean ====
/-
  The certificate of the kernel against its reference, over the extended reals.

  Both programs return two arrays of the token array x : [1, 2048, 11008] and the weight array W : [4096, 11008].
  The first is x · Wᵀ: entry (0, s, d) is the sum over the 11008 features of x[0, s, f] · W[d, f]. The kernel computes
  it block by block on a 4 × 16 grid, each block the product of 512 token rows and 256 weight rows over all features,
  after a change to a narrower float format that is the identity on the extended reals; the reference computes it as
  one contraction. The two are the same sums of the same products (Proof/Spec.lean `rowDots`).
  The second is a mask over the features: a feature is kept when the number of tokens that are positive there exceeds
  the floor of 0.95 times the mean of those numbers. The kernel counts by summing, as floats, the indicators of
  x[s, f] > 0 over the tokens, 256 features per grid point; the reference clamps x at zero first, compares, and adds
  the indicators as 32-bit integers before converting. Clamping does not change positivity and 2048 ones do not wrap,
  so the counts agree (Proof/LibIndicatorSum.lean); the thresholding is the same text in both.

  The frames of the two kernel programs are the generated ones; the reference's frame is its run with the results
  dropped; the idealization rewrote nothing, so `preserves` is trivial.
-/
import proofs.«173430_j10806137716759_1_alg».proof.Defs
import proofs.«173430_j10806137716759_1_alg».proof.Proof.Gen.Kernel
import proofs.«173430_j10806137716759_1_alg».proof.Proof.Gen.Kernel.Skeleton
import proofs.«173430_j10806137716759_1_alg».proof.Proof.Gen.Kernel.Launch
import proofs.«173430_j10806137716759_1_alg».proof.Proof.Gen.Kernel.Points
import proofs.«173430_j10806137716759_1_alg».proof.Proof.Gen.Kernel.Frame
import proofs.«173430_j10806137716759_1_alg».proof.Proof.Gen.KernelIdeal
import proofs.«173430_j10806137716759_1_alg».proof.Proof.Gen.KernelIdeal.Skeleton
import proofs.«173430_j10806137716759_1_alg».proof.Proof.Gen.KernelIdeal.Launch
import proofs.«173430_j10806137716759_1_alg».proof.Proof.Gen.KernelIdeal.Points
import proofs.«173430_j10806137716759_1_alg».proof.Proof.Gen.KernelIdeal.Frame
import proofs.«173430_j10806137716759_1_alg».proof.Proof.Gen.ReferenceIdeal
import proofs.«173430_j10806137716759_1_alg».proof.Proof.Gen.Pre_finite_inputs
import proofs.«173430_j10806137716759_1_alg».proof.Proof.KernelValue
import proofs.«173430_j10806137716759_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.ValueP.run (F := Ideal) m ρ)

/-- From memories that agree on the arguments both idealized programs end with their first result at `rowDots` of the
    token array's [2048, 11008] view and the weights, under a leading unit axis, and their second at the thresholded
    positive counts of that view. -/
theorem algebraic : Cert.algebraic_KernelIdeal_ReferenceIdeal := by
  intro m ρ m' ρ' _ hagree
  refine ⟨_, _, Cert.KernelIdeal.KValue.run m ρ, ?_⟩
  refine (θ_run Cert.ReferenceIdeal.defs _ _).mono (fun r h c => ⟨(h c).1.trans ?_, (h c).2.1.trans ?_, (h c).2.2.1, (h c).2.2.2⟩)
    (Cert.ReferenceIdeal.ValueP.run (F := Ideal) m' ρ')
  · rw [(hagree c).1, (hagree c).2, Cert.ReferenceIdeal.ReadP.val_main_v0_eq, Cert.ReferenceIdeal.RefValue.dot_eq]
    rfl
  · rw [(hagree c).1, Cert.ReferenceIdeal.ReadP.val_main_v14_eq, Cert.ReferenceIdeal.RefValue.mask_eq,
      Cert.ReferenceIdeal.RefValue.counts_eq]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
